-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S1000x2048 : Shape := ⟨2, ![1000, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1000x2048 : S_.BroadcastsInDim S1000x2048 (![] : Fin 0 → Fin S1000x2048.rank)
  reducesTo_S1000x2048_S_d0_1 : S1000x2048.ReducesTo [0, 1] S_

variable [Facts]

def fn {F : FTy → Type} [FloatOps F] (main_arg0 : FVec F S16384x2048 .f32) (main_arg1 : FVec F S1000x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S1000x2048 .f32 := Host.absf main_arg1
  let main_cst_0 : FVec F S_ .f32 := constant S_ .f32 0x7F800000#32
  let main_v5 : FVec F S1000x2048 .f32 := broadcastInDim S1000x2048 ![] bcast_S_S1000x2048 main_cst_0
  let main_v6 : IVec S1000x2048 1 := cmpf .olt main_v4 main_v5
  let main_c_1 : IVec S_ 1 := constantI S_ 1 1#1
  let main_v7 : IVec S_ 1 := (fun x v => Host.reduce IntOp.andi x v reducesTo_S1000x2048_S_d0_1 h_S_) main_v6 main_c_1
  let main_v8 : IVec S_ 1 := andi main_v3 main_v7
  main_v8
-- ==== Kernel.lean ====
abbrev S16384x2048 : Shape := ⟨2, ![16384, 2048]⟩
abbrev S1000x2048 : Shape := ⟨2, ![1000, 2048]⟩
abbrev S_ : Shape := ⟨0, ![]⟩
abbrev S1024x2048 : Shape := ⟨2, ![1024, 2048]⟩
abbrev S16384x1024 : Shape := ⟨2, ![16384, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1024x1 : Shape := ⟨2, ![1024, 1]⟩
abbrev S1x1024 : Shape := ⟨2, ![1, 1024]⟩
abbrev S16384x1000 : Shape := ⟨2, ![16384, 1000]⟩

abbrev nBuf : Space → Nat
  | .hbm => 7
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S1000x2048, .f32⟩
  | .hbm, ⟨2, _⟩ => ⟨S_, .i32⟩
  | .hbm, ⟨3, _⟩ => ⟨S_, .f32⟩
  | .hbm, ⟨4, _⟩ => ⟨S1024x2048, .f32⟩
  | .hbm, ⟨5, _⟩ => ⟨S16384x1024, .f32⟩
  | .hbm, ⟨6, _⟩ => ⟨S16384x1000, .f32⟩
  | .local _ .vmem, ⟨0, _⟩ => ⟨S512x2048, .f32⟩
  | .local _ .vmem, ⟨1, _⟩ => ⟨S512x2048, .f32⟩
  | .local _ .vmem, ⟨2, _⟩ => ⟨S1024x2048, .f32⟩
  | .local _ .vmem, ⟨3, _⟩ => ⟨S512x1024, .f32⟩
  | .local _ .vmem, ⟨4, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S1000x2048_S1024x2048_0240_000 : S1000x2048.Pads (![0, 0] : Fin 2 → Nat) ![24, 0] ![0, 0] S1024x2048
  h_S_ : 0 < S_.numel
  inb_S512x2048_S512x2048_0_0 : ∀ a, (![0, 0] : Fin 2 → Nat) a + S512x2048.size a ≤ S512x2048.size a
  h_S512x2048 : 0 < S512x2048.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  reduces_S512x2048_S512 : S512x2048.Reduces [1] S512
  shapeCasts_S512_S512x1 : S512.ShapeCasts S512x1
  reduces_S1024x2048_S1024 : S1024x2048.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S512x1_S512x1024 : S512x1.Broadcasts S512x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  slices_S16384x1024_S16384x1000_0_0 : S16384x1024.Slices ![0, 0] S16384x1000
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .f32 = 32 ∨ (Rect.block (s := S1024x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S1000x2048 : Shape := ⟨2, ![1000, 2048]⟩
abbrev S_ : Shape := ⟨0, ![]⟩
abbrev S16384 : Shape := ⟨1, ![16384]⟩
abbrev S16384x1 : Shape := ⟨2, ![16384, 1]⟩
abbrev S1000 : Shape := ⟨1, ![1000]⟩
abbrev S1x1000 : Shape := ⟨2, ![1, 1000]⟩
abbrev S16384x1000 : Shape := ⟨2, ![16384, 1000]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1000x2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1000x2048, .f32⟩
  | .hbm, ⟨7, _⟩ => ⟨S_, .f32⟩
  | .hbm, ⟨8, _⟩ => ⟨S1000, .f32⟩
  | .hbm, ⟨9, _⟩ => ⟨S1x1000, .f32⟩
  | .hbm, ⟨10, _⟩ => ⟨S16384x1000, .f32⟩
  | .hbm, ⟨11, _⟩ => ⟨S16384x1000, .f32⟩
  | .hbm, ⟨12, _⟩ => ⟨S16384x1000, .f32⟩
  | .hbm, ⟨13, _⟩ => ⟨S16384x1000, .f32⟩
  | .hbm, ⟨14, _⟩ => ⟨S_, .f32⟩
  | .hbm, ⟨15, _⟩ => ⟨S16384x1000, .f32⟩
  | .hbm, ⟨16, _⟩ => ⟨S16384x1000, .f32⟩
  | .hbm, ⟨17, _⟩ => ⟨S16384x1000, .f32⟩
  | .hbm, ⟨18, _⟩ => ⟨S_, .f32⟩
  | .hbm, ⟨19, _⟩ => ⟨S16384x1000, .f32⟩
  | .hbm, ⟨20, _⟩ => ⟨S16384x1000, .f32⟩
  | .hbm, ⟨21, _⟩ => ⟨S16384x1000, .f32⟩
  | .hbm, ⟨22, _⟩ => ⟨S16384x1000, .f32⟩
  | .hbm, ⟨23, _⟩ => ⟨S_, .f32⟩
  | .hbm, ⟨24, _⟩ => ⟨S16384x1000, .f32⟩
  | .hbm, ⟨25, _⟩ => ⟨S16384x1000, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S16384_S16384x1_0 : S16384.BroadcastsInDim S16384x1 (![0] : Fin 1 → Fin S16384x1.rank)
  reducesTo_S1000x2048_S1000_d1 : S1000x2048.ReducesTo [1] S1000
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  bcast_S_S16384x1000 : S_.BroadcastsInDim S16384x1000 (![] : Fin 0 → Fin S16384x1000.rank)
  dot_S16384x2048_S1000x2048_S16384x1000_1_1_0_0_n_n_wf : DotDims.WF S16384x2048 S1000x2048 S16384x1000 [1] [1] [0] [0] [] []

variable [Facts₀]

def dot_S16384x2048_S1000x2048_S16384x1000_1_1_0_0_n_n : DotDims S16384x2048 S1000x2048 S16384x1000 where
  lhsContracting := [1]
  rhsContracting := [1]
  lhsNonContracting := [0]
  rhsNonContracting := [0]
  lhsBatch := []
  rhsBatch := []
  wf := dot_S16384x2048_S1000x2048_S16384x1000_1_1_0_0_n_n_wf

class Facts : Prop extends Facts₀ where

variable [Facts]
-- ==== Proof.Spec.lean ====
/-
  The function both programs compute.

  For a feature row x_b (2048 entries) and a prototype row p_c, the squared Euclidean distance is expanded as
  |x_b|² + |p_c|² − 2·⟨x_b, p_c⟩, clamped below at zero, and the result is minus its square root (divided by the
  temperature, the constant one).  Every quantity is an extended real: the three sums are plain finite sums, and the
  clamp, the root, the negation and the quotient are the textbook operations on the extended reals, applied in the
  same order by both programs, so no law beyond `0 + s = s` and `0 − y = −y` is needed to join the two sides.
-/
import Idealize.ShloMosaic.PureOps.Ideal
import Idealize.ShloMosaic.PureOps.Ideal.Laws
import Idealize.ShloMosaic.Lib.ValueIdx

noncomputable section

namespace Cert.NegDist

open Idealize.ShloMosaic Idealize.ShloMosaic.ValueIdx
open scoped BigOperators

/-- The inner product of row `r` of `a` with row `s` of `b`, both rows of length 2048: ∑ₖ a(r,k)·b(s,k).
    With `a = b` and `r = s` it is the row's squared norm. -/
def rowDot {R S : ℕ} (a : (⟨2, ![R, 2048]⟩ : Shape).Idx → EReal) (b : (⟨2, ![S, 2048]⟩ : Shape).Idx → EReal)
    (r : Fin R) (s : Fin S) : EReal :=
  ∑ k : Fin 2048, a (ix2 r k) * b (ix2 s k)

/-- Minus the distance from the two squared norms `fs`, `ps` and the inner product `cr`:
    −√(max(fs + ps − 2·cr, 0)) / 1, the literals two and one kept as their binary words. -/
def negDist (fs ps cr : EReal) : EReal :=
  Ideal.div (-(Ideal.sqrt (max (fs + ps - Ideal.ofBits .f32 0x40000000#32 * cr) 0))) (Ideal.ofBits .f32 0x3F800000#32)

/-- The result array: entry (b, c) is minus the distance between feature row `b` and prototype row `c`. -/
def G (x : (⟨2, ![16384, 2048]⟩ : Shape).Idx → EReal) (p : (⟨2, ![1000, 2048]⟩ : Shape).Idx → EReal) :
    (⟨2, ![16384, 1000]⟩ : Shape).Idx → EReal :=
  fun i => negDist (rowDot x x (i 0) (i 0)) (rowDot p p (i 1) (i 1)) (rowDot x p (i 0) (i 1))

/-- The same over prototypes padded to 1024 rows: what the kernel's region writes, before the padded columns are
    cut away. -/
def Gpad (x : (⟨2, ![16384, 2048]⟩ : Shape).Idx → EReal) (q : (⟨2, ![1024, 2048]⟩ : Shape).Idx → EReal) :
    (⟨2, ![16384, 1024]⟩ : Shape).Idx → EReal :=
  fun i => negDist (rowDot x x (i 0) (i 0)) (rowDot q q (i 1) (i 1)) (rowDot x q (i 0) (i 1))

/-- A subtraction from the zero word is a negation. -/
theorem zero_word_sub (y : EReal) : Ideal.ofBits .f32 0x00000000#32 - y = -y := by
  rw [Ideal.ofBits_zero_f32, zero_sub]

/-- A sum started from the zero word is the sum. -/
theorem zero_word_add (s : EReal) : Ideal.ofBits .f32 0x00000000#32 + s = s := by
  rw [Ideal.ofBits_zero_f32, zero_add]

end Cert.NegDist

end
-- ==== Proof.RefIsSpec.lean ====
/-
  The reference computes the specification.

  Read one operation at a time, the reference's result at (b, c) is the quotient by one of the negated root of
  max((0 + ∑ₖ x(b,k)²) + (0 + ∑ₖ p(c,k)²) − 2·∑ₖ x(b,k)·p(c,k), 0): the two row sums start from the zero word, which
  is the extended real zero, and the indices the broadcasts and the contraction read are the rows b and c.
-/
import proofs.«136632_j59081570124167_1_alg».proof.Proof.Gen.ReferenceIdeal.Read
import proofs.«136632_j59081570124167_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.NegDist
open scoped BigOperators

/-- The reference's last stage is `Cert.NegDist.G` of its two arguments. -/
theorem ref_eq (x0 : S16384x2048.Idx → EReal) (x1 : S1000x2048.Idx → EReal) :
    val_main_v18 (F := Ideal) x0 x1 = G x0 x1 := by
  funext i
  rw [val_main_v18_apply, val_main_v17_apply, val_main_cst_3_apply, val_main_v16_apply, val_main_v15_apply,
    val_main_v14_apply, val_main_v13_apply, val_main_cst_2_apply, val_main_v12_apply, val_main_v11_apply,
    val_main_v10_apply, val_main_cst_1_apply, val_main_v6_apply, val_main_v9_apply, val_main_v8_apply, val_main_v7_apply,
    val_main_v5_apply, val_main_v4_apply, val_main_v2_apply, val_main_v1_apply, val_main_cst_apply, val_main_cst_0_apply]
  -- the rows the two broadcasts and the contraction read
  have e1 : ∀ k, idx_main_v1 (idx_main_v2 (idx_main_v7 i)) k = ix2 (i 0) k := fun k =>
    funext fun a => by match a with | ⟨0, _⟩ => rfl | ⟨1, _⟩ => rfl
  have e4 : ∀ k, idx_main_v4 (idx_main_v5 (idx_main_v8 i)) k = ix2 (i 1) k := fun k =>
    funext fun a => by match a with | ⟨0, _⟩ => rfl | ⟨1, _⟩ => rfl
  have el : ∀ k, lidx_main_v6 i k = ix2 (i 0) k := fun k =>
    funext fun a => by match a with | ⟨0, _⟩ => rfl | ⟨1, _⟩ => rfl
  have er : ∀ k, ridx_main_v6 i k = ix2 (i 1) k := fun k =>
    funext fun a => by match a with | ⟨0, _⟩ => rfl | ⟨1, _⟩ => rfl
  simp only [e1, e4, el, er, Ideal.hostDivf_def, Ideal.hostNegf_def, Ideal.negf_def,
    Ideal.hostUnary_sqrt_def, Ideal.maximumf_def, Ideal.subf_def, Ideal.addf_def, Ideal.mulf_def, Ideal.ofBits_def,
    Ideal.ofBits_zero_f32, zero_add, G, negDist, rowDot]
  rfl

end Cert.ReferenceIdeal.RefValue

end
-- ==== Proof.LibColumns.lean ====
/-
  Column vectors and row sums read at an index.

  A vector of length a viewed as a column [a, 1]; a column broadcast along its unit axis to [a, b]; and the sum of a
  matrix along its second axis, read at a row.  Each reads ONE entry (or one row) of its operand, named here by
  coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Columns

open Idealize.ShloMosaic Idealize.ShloMosaic.ValueIdx
open scoped BigOperators

variable {α : Type}

/-- A vector of length `a` viewed as a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, n]` matrix of extended reals along its second axis, started from the zero word and read at row
    `r`, is `∑ₖ v(r, k)`. -/
theorem multiReduction_add_row {a n : ℕ} (v : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (r : Fin a) :
    multiReduction .add [1] ⟨1, ![a]⟩ v 0x00000000#32 h hφ hacc (ix1 r) = ∑ k : Fin n, v (ix2 r k) := by
  refine (Ideal.multiReduction_add_single v 0x00000000#32 h hφ hacc (ix1 r)).trans ?_
  refine Finset.sum_congr rfl fun k _ => ?_
  exact congrArg v (funext fun ax => Fin.ext (by match ax with | ⟨0, _⟩ => rfl | ⟨1, _⟩ => rfl))

end Cert.Columns

end
-- ==== Proof.KernelPayload.lean ====
/-
  The kernel body's stored value, entry by entry.

  At one grid point the body holds a block of 512 feature rows and all 1024 (padded) prototype rows.  It stores, at
  (b, c) of its 512 × 1024 output block, (0 − √(max(|x_b|² + |p_c|² − 2·⟨x_b, p_c⟩, 0))) / 1: the row sums of the
  squared blocks, the matrix product of the two blocks along their second axes, and the pointwise tail.  This module
  reads that value at an index as the specification's `negDist` of the three inner products.
-/
import proofs.«136632_j59081570124167_1_alg».proof.Proof.Gen.KernelIdeal.Skeleton
import proofs.«136632_j59081570124167_1_alg».proof.Proof.Spec
import proofs.«136632_j59081570124167_1_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Dist

open Cert.KernelIdeal Cert.KernelIdeal.Gen Idealize.ShloMosaic Idealize.ShloMosaic.ValueIdx Cert.NegDist Cert.Columns
open scoped BigOperators

/-! ## The contraction's operand indices, axis by axis -/

theorem lhs_ax0 (i : S512x1024.Idx) (q : dot_S512x2048_S1024x2048_S512x1024_1_1_0_0_n_n.contr.Idx) :
    (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
theorem lhs_ax1 (i : S512x1024.Idx) (q : dot_S512x2048_S1024x2048_S512x1024_1_1_0_0_n_n.contr.Idx) :
    (dot_S512x2048_S1024x2048_S512x1024_1_1_0_0_n_n.lhsIdx i q 1).val = (q ⟨0, by decide⟩).val :=
  dot_S512x2048_S1024x2048_S512x1024_1_1_0_0_n_n.lhsIdx_val_of_single rfl i q
theorem rhs_ax0 (i : S512x1024.Idx) (q : dot_S512x2048_S1024x2048_S512x1024_1_1_0_0_n_n.contr.Idx) :
    (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
theorem rhs_ax1 (i : S512x1024.Idx) (q : dot_S512x2048_S1024x2048_S512x1024_1_1_0_0_n_n.contr.Idx) :
    (dot_S512x2048_S1024x2048_S512x1024_1_1_0_0_n_n.rhsIdx i q 1).val = (q ⟨0, by decide⟩).val :=
  dot_S512x2048_S1024x2048_S512x1024_1_1_0_0_n_n.rhsIdx_val_of_single rfl i q

/-- The block's matrix product into the zero accumulator, read at (b, c): the inner product of row `b` of the left
    operand with row `c` of the right one (the contraction runs over the second axis of both). -/
theorem cross_apply (l : FVec Ideal S512x2048 .bf16) (r : FVec Ideal S1024x2048 .bf16) (b : Fin 512) (c : Fin 1024) :
    matmul dot_S512x2048_S1024x2048_S512x1024_1_1_0_0_n_n none l r (constant (F := Ideal) S512x1024 .f32 0x00000000#32) (ix2 b c)
      = ∑ k : Fin 2048, l (ix2 b k) * r (ix2 c k) := by
  simp only [matmul]
  rw [Ideal.matmul_constant_zero_apply, ← Equiv.sum_comp (ValueIdx.contrEquiv1 dot_S512x2048_S1024x2048_S512x1024_1_1_0_0_n_n 2048 rfl rfl).symm]
  refine Finset.sum_congr rfl fun k _ => ?_
  have hk := ValueIdx.contrEquiv1_symm_val dot_S512x2048_S1024x2048_S512x1024_1_1_0_0_n_n 2048 rfl rfl k
  have el : dot_S512x2048_S1024x2048_S512x1024_1_1_0_0_n_n.lhsIdx (ix2 b c) ((ValueIdx.contrEquiv1 dot_S512x2048_S1024x2048_S512x1024_1_1_0_0_n_n 2048 rfl rfl).symm k) = ix2 b k := funext fun a => Fin.ext (by
    match a with
    | ⟨0, _⟩ => exact lhs_ax0 _ _
    | ⟨1, _⟩ => exact (lhs_ax1 _ _).trans hk)
  have er : dot_S512x2048_S1024x2048_S512x1024_1_1_0_0_n_n.rhsIdx (ix2 b c) ((ValueIdx.contrEquiv1 dot_S512x2048_S1024x2048_S512x1024_1_1_0_0_n_n 2048 rfl rfl).symm k) = ix2 c k := funext fun a => Fin.ext (by
    match a with
    | ⟨0, _⟩ => exact rhs_ax0 _ _
    | ⟨1, _⟩ => exact (rhs_ax1 _ _).trans hk)
  rw [el, er]

/-! ## The body's stored value at an index -/

/-- The value the body stores at (b, c) of its output block, from the feature block `x0` and the prototype block `x1`:
    minus the distance between row `b` of `x0` and row `c` of `x1`.  The two squared norms reach (b, c) through a
    column broadcast along the lanes and a transposed column broadcast along the rows; the narrowing of the matrix
    product's operands is the identity on extended reals. -/
theorem pay_apply (x0 : Vec Ideal S512x2048 .f32) (x1 : Vec Ideal S1024x2048 .f32) (b : Fin 512) (c : Fin 1024) :
    k0_pay1 (F := Ideal) x0 x1 (ix2 b c) = negDist (rowDot x0 x0 b b) (rowDot x1 x1 c c) (rowDot x0 x1 b c) := by
  unfold k0_pay1
  dsimp only
  rw [shapeCast_self]
  simp only [divf, subf, sqrt, maximumf, addf, mulf, broadcast]
  rw [broadcastTo_a1_ab_apply, shapeCast_a_a1_apply, multiReduction_add_row, broadcastTo_1b_ab_apply, transpose_ix2_apply,
    shapeCast_a_a1_apply, multiReduction_add_row, cross_apply]
  simp only [truncf, Ideal.divf_def, Ideal.subf_def, Ideal.sqrt_def, Ideal.maximumf_def, Ideal.addf_def, Ideal.mulf_def,
    Ideal.truncf_def, Ideal.ofBits_def, negDist, rowDot, mulf_apply, Ideal.ofBits_zero_f32, zero_sub]

end Cert.KernelIdeal.Dist

end
-- ==== Proof.KernelBlocks.lean ====
/-
  From the blocks to the array.

  The region runs over 32 grid points.  Point t loads feature rows 512·t … 512·t + 511 and the whole padded prototype
  array, and writes back rows 512·t … 512·t + 511 of the 16384 × 1024 output.  Each written block is the
  restriction of ONE whole-array function — the padded specification of the two arrays the region finds — and the
  32 row blocks tile the output, so after the region the output array is that function.
-/
import proofs.«136632_j59081570124167_1_alg».proof.Proof.Gen.KernelIdeal.Frame
import proofs.«136632_j59081570124167_1_alg».proof.Proof.KernelPayload
import Idealize.ShloMosaic.Lib.Pipeline.Value
import Idealize.ShloMosaic.Lib.KernelVsHost

set_option maxRecDepth 16384

noncomputable section

namespace Cert.KernelIdeal.Dist

open Cert.KernelIdeal Cert.KernelIdeal.Gen Idealize.ShloMosaic Idealize.ShloMosaic.TcCoe Idealize.ShloMosaic.ValueIdx
open Idealize.SL.Sem Cert.NegDist
open Idealize.ShloMosaic.Pipeline (Dat)
open scoped BigOperators

variable (m : (ℓ : Loc nD τ sig) → Buf (Elt Ideal) ℓ) (ρ : Dev nD → PrngReg)

theorem offsets_zero : (![0, 0] : Fin 2 → Nat) = fun _ => 0 := funext fun a => by fin_cases a <;> rfl

/-- The printed index maps over the 32 grid points: the feature window and the output window sit at row block `t`,
    the prototype window always at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The blocks and the arrays, at their literal types -/

/-- The feature block and the prototype block the body loads at point `t`, and the two arrays the region finds. -/
abbrev featBlk (c : Dev nD) (t : Fin cfg0.N) : Vec Ideal S512x2048 .f32 := iblk m c 0 t
abbrev protoBlk (c : Dev nD) (t : Fin cfg0.N) : Vec Ideal S1024x2048 .f32 := iblk m c 1 t
abbrev featArr (c : Dev nD) : S16384x2048.Idx → EReal := V m c main_arg0
abbrev protoArr (c : Dev nD) : S1024x2048.Idx → EReal := V m c main_v0

/-- Row `p` of the feature block at point `t` is row `512·t + p` of the feature array. -/
theorem featBlk_apply (c : Dev nD) (t : Fin cfg0.N) (p : Fin 512) (k : Fin 2048) (r : Fin 16384)
    (hr : r.val = t.val * 512 + p.val) : featBlk m c t (ix2 p k) = featArr m c (ix2 r k) := by
  obtain ⟨e00, e01, -, -, -, -⟩ := idx_facts t
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 512 + 1 * p.val = r.val; omega
  | ⟨1, _⟩ => show win0_0.index t (1 : Fin 2) * 2048 + 1 * k.val = k.val; omega

/-- The prototype block is the whole (padded) prototype array at every point. -/
theorem protoBlk_eq (c : Dev nD) (t : Fin cfg0.N) : protoBlk m c t = protoArr m c := by
  obtain ⟨-, -, e10, e11, -, -⟩ := idx_facts t
  funext y
  show V m c main_v0 (((cfg0.win 1).blk t).view.emb y) = V m c main_v0 y
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 2048 + 1 * (y 1).val = (y 1).val; omega

/-- The body's stored value over a block of rows starting at row `r0` of `X`, against all rows of `Q`, is the
    padded specification at the array index under it. -/
theorem stored_eq (X : S16384x2048.Idx → EReal) (Q : S1024x2048.Idx → EReal) (x0 : Vec Ideal S512x2048 .f32)
    (x1 : Vec Ideal S1024x2048 .f32) (r0 : ℕ)
    (hx0 : ∀ (p : Fin 512) (k : Fin 2048) (r : Fin 16384), r.val = r0 + p.val → x0 (ix2 p k) = X (ix2 r k))
    (hx1 : x1 = Q) (y : S512x1024.Idx) (i : S16384x1024.Idx) (hi0 : (i 0).val = r0 + (y 0).val)
    (hi1 : (i 1).val = (y 1).val) : k0_pay1 (F := Ideal) x0 x1 y = Gpad X Q i := by
  obtain ⟨p, q, rfl⟩ : ∃ (p : Fin 512) (q : Fin 1024), y = ix2 p q := ⟨y 0, y 1, eq_ix2 y⟩
  have hq : i 1 = q := Fin.ext hi1
  subst hx1
  rw [pay_apply]
  unfold Gpad rowDot
  rw [hq]
  simp only [hx0 p _ (i 0) hi0]

/-- WHAT POINT `t` WRITES BACK is block `t` of the padded specification of the arrays the region finds. -/
theorem flushed_eq (c : Dev nD) (t : Fin cfg0.N) :
    (dats m 0 c).flushed 2 t = ((cfg0.win 2).blk t).view.read (Elt Ideal) (Gpad (featArr m c) (protoArr m c)) := by
  show (cfg0.win 2).cut (grid0.coords t) ((dats m 0 c).after 2 t) = _
  rw [after0_2]
  unfold out0_2
  rw [View.canon_unit_zero offsets_zero]
  simp only [View.ld_unit_zero (S := S512x2048) offsets_zero, View.ld_unit_zero (S := S1024x2048) offsets_zero]
  obtain ⟨-, -, -, -, e20, e21⟩ := idx_facts t
  funext j
  show k0_pay1 (F := Ideal) (featBlk m c t) (protoBlk m c t) j
    = Gpad (featArr m c) (protoArr m c) (((cfg0.win 2).blk t).view.emb j)
  refine stored_eq (featArr m c) (protoArr m c) (featBlk m c t) (protoBlk m c t) (t.val * 512)
    (fun p k r hr => featBlk_apply m c t p k r hr) (protoBlk_eq m c t) j (((cfg0.win 2).blk t).view.emb j) ?_ ?_
  · show win0_2.index t (0 : Fin 2) * 512 + 1 * (j 0).val = t.val * 512 + (j 0).val; omega
  · show win0_2.index t (1 : Fin 2) * 1024 + 1 * (j 1).val = (j 1).val; omega

/-! ## The cover -/

/-- An index of the output array is in point `t`'s block iff each coordinate is in the block's range on its axis. -/
theorem mem_blk (t : Fin cfg0.N) (i : S16384x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v1).slice (win0_2.rect t)).set ↔ _
  rw [View.set_slice_whole, Rect.mem_set_unit]
  exact Iff.rfl

/-- Every index of the output array lies in the block of the point its row falls in: row r in block r / 512. -/
theorem covered (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  have hN : grid0.N = 32 := N_0
  have ht : (i 0).val / 512 < cfg0.N := by show _ < grid0.N; rw [hN]; omega
  obtain ⟨-, -, -, -, e20, e21⟩ := idx_facts ⟨(i 0).val / 512, ht⟩
  refine ⟨⟨(i 0).val / 512, ht⟩, flush0_2 _, ?_⟩
  rw [mem_blk]
  intro a
  match a with
  | ⟨0, _⟩ =>
    show win0_2.index ⟨(i 0).val / 512, ht⟩ (0 : Fin 2) * 512 ≤ (i 0).val
      ∧ (i 0).val < win0_2.index ⟨(i 0).val / 512, ht⟩ (0 : Fin 2) * 512 + 512
    rw [e20]; show (i 0).val / 512 * 512 ≤ (i 0).val ∧ (i 0).val < (i 0).val / 512 * 512 + 512; omega
  | ⟨1, _⟩ =>
    show win0_2.index ⟨(i 0).val / 512, ht⟩ (1 : Fin 2) * 1024 ≤ (i 1).val
      ∧ (i 1).val < win0_2.index ⟨(i 0).val / 512, ht⟩ (1 : Fin 2) * 1024 + 1024
    rw [e21]; omega

/-- THE OUTPUT ARRAY after the region: the padded specification of the arrays the region finds. -/
theorem region_result (c : Dev nD) : (dats m 0 c).arrAt 2 cfg0.N = Gpad (featArr m c) (protoArr m c) :=
  (dats m 0 c).arrAt_eq_of_cover 2 (Gpad (featArr m c) (protoArr m c)) (fun t _ => flushed_eq m c t) covered

end Cert.KernelIdeal.Dist

end
-- ==== Proof.KernelRun.lean ====
/-
  The kernel program's result.

  Before the region the host pads the prototypes from 1000 to 1024 rows; after it, the host keeps the first 1000
  columns of the region's 16384 × 1024 output.  A kept column c < 1000 depends on prototype row c only, which lies
  below the padding, so the kept part of the padded specification is the specification of the two arguments.
-/
import proofs.«136632_j59081570124167_1_alg».proof.Proof.Gen.KernelIdeal.Frame
import proofs.«136632_j59081570124167_1_alg».proof.Proof.KernelBlocks
import Idealize.ShloMosaic.Lib.Pipeline.Value
import Idealize.ShloMosaic.Lib.KernelVsHost
import Idealize.ShloMosaic.Lib.StableHlo.Run

set_option maxRecDepth 16384

noncomputable section

namespace Cert.KernelIdeal.Dist

open Cert.KernelIdeal Cert.KernelIdeal.Gen Idealize.ShloMosaic Idealize.ShloMosaic.TcCoe Idealize.ShloMosaic.ValueIdx
open Idealize.SL.Sem Cert.NegDist Idealize.ShloMosaic.StableHlo
open Idealize.ShloMosaic.Pipeline (Dat)
open scoped BigOperators

variable (m : (ℓ : Loc nD τ sig) → Buf (Elt Ideal) ℓ) (ρ : Dev nD → PrngReg)

/-! ## The prototypes as the region finds them -/

/-- The host lines before the region pad the prototypes with 24 rows of the converted integer zero. -/
theorem protoArr_eq (c : Dev nD) : protoArr m c =
    pad S1024x2048 ![0, 0] ![24, 0] ![0, 0] (m ((c : Thread nD τ).loc main_arg1))
      (sitofp (F := Ideal) .f32 (constantI S_ 32 0#32)) pads_S1000x2048_S1024x2048_0240_000 h_S_ := by
  show (V m c main_v0 : S1024x2048.Idx → EReal) = _
  dsimp only [V, V0]
  simp only [hostOps0, hostOps0_1, List.flatten_cons, List.flatten_nil, List.append_nil, List.cons_append, List.nil_append]
  after_results
  rfl

/-- Below row 1000 the padded array is the prototypes: the padding sits after them. -/
theorem protoArr_apply (c : Dev nD) (q : Fin 1024) (q' : Fin 1000) (hq : q.val = q'.val) (k : Fin 2048) :
    protoArr m c (ix2 q k) = (m ((c : Thread nD τ).loc main_arg1) : S1000x2048.Idx → EReal) (ix2 q' k) := by
  rw [protoArr_eq]
  refine pad_apply_of_inside _ _ _ _ _ _ _ (ix2 q k) (ix2 q' k) fun a => ?_
  match a with
  | ⟨0, _⟩ => show q.val = 0 + q'.val * (0 + 1); omega
  | ⟨1, _⟩ => show k.val = 0 + k.val * (0 + 1); omega

/-! ## The host line after the region -/

/-- The one line after the region cuts the output array to its first 1000 columns. -/
theorem tail_eq (c : Dev nD) :
    Pipeline.afterTail₀ cfgs (dats m) 0 (V0 m) [hostOps1] c main_v2
      = extractStridedSlice S16384x1000 ![0, 0] ((dats m 0 c).arrAt 2 cfg0.N) slices_S16384x1024_S16384x1000_0_0 := by
  unfold Pipeline.afterTail₀
  show StableHlo.after hostOps1 _ (Proc.devRef .tc main_v2) = _
  after_results
  exact congrArg (fun x => extractStridedSlice S16384x1000 ![0, 0] x slices_S16384x1024_S16384x1000_0_0)
    (Pipeline.withArrays_arr spec0 launch0.win.arr_inj c (V0 m c) (fun w => (dats m 0 c).arrAt w cfg0.N) 2)

/-- The kept columns never read a padded row: the first 1000 columns of the padded specification are the
    specification of the two arguments. -/
theorem slice_eq (c : Dev nD) :
    extractStridedSlice S16384x1000 ![0, 0] (Gpad (featArr m c) (protoArr m c)) slices_S16384x1024_S16384x1000_0_0
      = G (m ((c : Thread nD τ).loc main_arg0)) (m ((c : Thread nD τ).loc main_arg1)) := by
  funext i
  have hi1 : (i 1).val < 1000 := (i 1).isLt
  have hq : (i 1).val < 1024 := by omega
  refine (extractStridedSlice_apply _ _ _ i (ix2 (i 0) (⟨(i 1).val, hq⟩ : Fin 1024)) fun a => ?_).trans ?_
  · match a with
    | ⟨0, _⟩ => show (i 0).val = 0 + (i 0).val; omega
    | ⟨1, _⟩ => show (i 1).val = 0 + (i 1).val; omega
  · have hX : featArr m c = m ((c : Thread nD τ).loc main_arg0) := V_main_arg0 m c
    have hQ : ∀ k, protoArr m c (ix2 (⟨(i 1).val, hq⟩ : Fin 1024) k)
        = (m ((c : Thread nD τ).loc main_arg1) : S1000x2048.Idx → EReal) (ix2 (i 1) k) :=
      fun k => protoArr_apply m c ⟨(i 1).val, hq⟩ (i 1) rfl k
    show negDist (rowDot (featArr m c) (featArr m c) (i 0) (i 0))
        (rowDot (protoArr m c) (protoArr m c) ⟨(i 1).val, hq⟩ ⟨(i 1).val, hq⟩)
        (rowDot (featArr m c) (protoArr m c) (i 0) ⟨(i 1).val, hq⟩) = _
    unfold G rowDot
    simp only [hX, hQ]

/-- The kernel's result array: the specification of its two arguments. -/
theorem result_eq (c : Dev nD) :
    Pipeline.afterTail₀ cfgs (dats m) 0 (V0 m) [hostOps1] c main_v2
      = G (m ((c : Thread nD τ).loc main_arg0)) (m ((c : Thread nD τ).loc main_arg1)) := by
  rw [tail_eq, region_result]
  exact slice_eq m c

/-! ## The run, read -/

/-- Every weakly fair execution of the idealized kernel program ends with its result at the specification of its
    arguments, and the arguments unchanged. -/
theorem run : θ_run defs (onTc (τ := τ) (main (F := Ideal))) ⟨m, fun _ => 0, ρ⟩ fun r => ∀ c : Dev nD,
      r.2.mem ((c.tc : Thread nD τ).loc main_v2)
        = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Dist

end
-- ==== Proof.lean ====
/-
  Minus the Euclidean distance from every feature row to every prototype row.

  Both programs expand the squared distance between feature row x_b and prototype row p_c as
  |x_b|² + |p_c|² − 2·⟨x_b, p_c⟩, clamp it below at zero, take the square root, negate it and divide by one.  Read
  over the extended reals, where a change of float format is the identity, the three sums are the same finite sums on
  both sides whatever the order they are taken in, and the pointwise tail is the same chain of operations
  (a subtraction from zero is a negation), so the two results agree entry by entry: `Cert.NegDist.G`.

  The kernel computes the distances in 32 blocks of 512 feature rows against the prototypes padded with 24 zero rows;
  the padded rows only produce the 24 extra columns that the program cuts away at the end.  The idealization rewrote
  nothing, so the preservation claim is trivial.
-/
import proofs.«136632_j59081570124167_1_alg».proof.Defs
import proofs.«136632_j59081570124167_1_alg».proof.Proof.Gen.Kernel
import proofs.«136632_j59081570124167_1_alg».proof.Proof.Gen.Kernel.Skeleton
import proofs.«136632_j59081570124167_1_alg».proof.Proof.Gen.Kernel.Launch
import proofs.«136632_j59081570124167_1_alg».proof.Proof.Gen.Kernel.Points
import proofs.«136632_j59081570124167_1_alg».proof.Proof.Gen.Kernel.Frame
import proofs.«136632_j59081570124167_1_alg».proof.Proof.Gen.KernelIdeal
import proofs.«136632_j59081570124167_1_alg».proof.Proof.Gen.KernelIdeal.Skeleton
import proofs.«136632_j59081570124167_1_alg».proof.Proof.Gen.KernelIdeal.Launch
import proofs.«136632_j59081570124167_1_alg».proof.Proof.Gen.KernelIdeal.Points
import proofs.«136632_j59081570124167_1_alg».proof.Proof.Gen.KernelIdeal.Frame
import proofs.«136632_j59081570124167_1_alg».proof.Proof.Gen.ReferenceIdeal
import proofs.«136632_j59081570124167_1_alg».proof.Proof.Gen.ReferenceIdeal.Run
import proofs.«136632_j59081570124167_1_alg».proof.Proof.Gen.ReferenceIdeal.Read
import proofs.«136632_j59081570124167_1_alg».proof.Proof.Gen.Pre_finite_inputs
import proofs.«136632_j59081570124167_1_alg».proof.Proof.RefIsSpec
import proofs.«136632_j59081570124167_1_alg».proof.Proof.KernelRun
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten by the idealization. -/
theorem preserves : Cert.preserves_Kernel_KernelIdeal := trivial

/-- From memories agreeing on the two arguments, both idealized programs end with the specification of those
    arguments in their result arrays. -/
theorem algebraic : Cert.algebraic_KernelIdeal_ReferenceIdeal := by
  intro m ρ m' ρ' _ hagree
  refine ⟨fun c => Cert.NegDist.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Dist.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v18_eq _ _).trans (Cert.ReferenceIdeal.RefValue.ref_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
